-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S2x128x128 : Shape := ⟨3, ![2, 128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S2x128x128 : S_.BroadcastsInDim S2x128x128 (![] : Fin 0 → Fin S2x128x128.rank)
  reducesTo_S2x128x128_S_d0_1_2 : S2x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S2x10000x10000 .f32) (main_arg2 : FVec F S2x128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S2x10000x10000 : Shape := ⟨3, ![2, 10000, 10000]⟩
abbrev S2x128x128 : Shape := ⟨3, ![2, 128, 128]⟩
abbrev S128 : Shape := ⟨1, ![128]⟩
abbrev S1x128 : Shape := ⟨2, ![1, 128]⟩
abbrev S1x400x10000 : Shape := ⟨3, ![1, 400, 10000]⟩
abbrev S400x128 : Shape := ⟨2, ![400, 128]⟩
abbrev S400x10000 : Shape := ⟨2, ![400, 10000]⟩
abbrev S1x128x128 : Shape := ⟨3, ![1, 128, 128]⟩
abbrev S128x128 : Shape := ⟨2, ![128, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S2x128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S2x128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![25, 2], ![false, false]⟩

def k0_off1 (i : grid0.Coords) : Fin 3 → Nat :=
  let arg1 : BitVec 32 := BitVec.ofNat 32 (i 1).val
  let v4 : Index := Scalar.indexCast arg1
  let c0_4 : Index := 0#32
  let c0_5 : Index := 0#32
  ![v4.toNat, 0, 0]
def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v9 : BitVec 32 := Scalar.extui v8
  let c0_i32_7 : BitVec 32 := 0#32
  let v10 : BitVec 1 := Scalar.cmpi .ne v9 c0_i32_7
  v10

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  inb_S10000x128_S10000x128_0_0 : ∀ a, (![0, 0] : Fin 2 → Nat) a + S10000x128.size a ≤ S10000x128.size a
  h_S10000x128 : 0 < S10000x128.numel
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S1x128x128.size a ≤ S2x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S2x10000x10000.size a
  hwx0_0 : ∀ i : grid0.Coords, EltTy.bits .f32 = 32 ∨ (Rect.block (s := S2x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128x128.size a ≤ S2x128x128.size a
  hwx0_2 : ∀ i : grid0.Coords, EltTy.bits .f32 = 32 ∨ (Rect.block (s := S2x128x128) S2x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S2x128x128 : Shape := ⟨3, ![2, 128, 128]⟩
abbrev S128 : Shape := ⟨1, ![128]⟩
abbrev S1x10000x10000 : Shape := ⟨3, ![1, 10000, 10000]⟩
abbrev S10000x10000 : Shape := ⟨2, ![10000, 10000]⟩
abbrev S1x128x128 : Shape := ⟨3, ![1, 128, 128]⟩
abbrev S128x128 : Shape := ⟨2, ![128, 128]⟩
abbrev S1x10000x128 : Shape := ⟨3, ![1, 10000, 128]⟩
abbrev S2x10000x128 : Shape := ⟨3, ![2, 10000, 128]⟩
abbrev S_ : Shape := ⟨0, ![]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S2x128x128, .f32⟩
  | .hbm, ⟨3, _⟩ => ⟨S128, .f32⟩
  | .hbm, ⟨4, _⟩ => ⟨S1x10000x10000, .f32⟩
  | .hbm, ⟨5, _⟩ => ⟨S10000x10000, .f32⟩
  | .hbm, ⟨6, _⟩ => ⟨S10000x128, .f32⟩
  | .hbm, ⟨7, _⟩ => ⟨S1x128x128, .f32⟩
  | .hbm, ⟨8, _⟩ => ⟨S128x128, .f32⟩
  | .hbm, ⟨9, _⟩ => ⟨S10000x128, .f32⟩
  | .hbm, ⟨10, _⟩ => ⟨S1x10000x10000, .f32⟩
  | .hbm, ⟨11, _⟩ => ⟨S10000x10000, .f32⟩
  | .hbm, ⟨12, _⟩ => ⟨S10000x128, .f32⟩
  | .hbm, ⟨13, _⟩ => ⟨S1x128x128, .f32⟩
  | .hbm, ⟨14, _⟩ => ⟨S128x128, .f32⟩
  | .hbm, ⟨15, _⟩ => ⟨S10000x128, .f32⟩
  | .hbm, ⟨16, _⟩ => ⟨S1x10000x128, .f32⟩
  | .hbm, ⟨17, _⟩ => ⟨S1x10000x128, .f32⟩
  | .hbm, ⟨18, _⟩ => ⟨S2x10000x128, .f32⟩
  | .hbm, ⟨19, _⟩ => ⟨S_, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000x128, .f32⟩
  | .hbm, ⟨26, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_cst : Ref sig .tc := ⟨.hbm, 24, rfl⟩
abbrev main_call0_v0 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  slices_S2x128x128_S1x128x128_0_0_0 : S2x128x128.Slices ![0, 0, 0] S1x128x128
  shapeCasts_S1x128x128_S128x128 : S1x128x128.ShapeCasts S128x128
  slices_S2x10000x10000_S1x10000x10000_1_0_0 : S2x10000x10000.Slices ![1, 0, 0] S1x10000x10000
  slices_S2x128x128_S1x128x128_1_0_0 : S2x128x128.Slices ![1, 0, 0] S1x128x128
  bcast_S10000x128_S1x10000x128_1_2 : S10000x128.BroadcastsInDim S1x10000x128 (![1, 2] : Fin 2 → Fin S1x10000x128.rank)
  concatenates_S1x10000x128_S1x10000x128_S2x10000x128_d0 : Shape.Concatenates [S1x10000x128, S1x10000x128] S2x10000x128 0
  reducesTo_S2x10000x128_S10000x128_d0 : S2x10000x128.ReducesTo [0] S10000x128
  h_S_ : 0 < S_.numel
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.RelationStepWords.lean ====
/-
  The kernel body at one grid point, as a triple in the program logic over ANY float instance: what it needs of its five
  staging buffers and what it leaves in them. The two kinds of point (first relation, last relation) are run separately; each
  leaves the four inputs untouched and the output block at a value named from the inputs' contents (and, at a last relation's
  point, from what the output block held).
-/
import proofs.«101269_g83150566851288_cont_9to1c4b_27_4_alg».proof.Proof.Gen.Kernel.Frame
import proofs.«101269_g83150566851288_cont_9to1c4b_27_4_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes

A grid point is a block of 400 nodes and one relation. The body multiplies the point's 400 rows of the relation's adjacency
matrix by the node features, multiplies the result by the relation's 128×128 weight slab, and then either starts the block's
accumulator (relation 0: product plus bias) or finishes it (relation 1: what the accumulator held plus the product, clamped at 0). -/

/-- The point is a first relation's (`rel == 0`), as the body tests it. -/
abbrev firstRel (i : grid0.Coords) : Prop := k0_cond1 i = 1#1
/-- The point is a last relation's (`rel == 1`), as the body tests it. -/
abbrev lastRel (i : grid0.Coords) : Prop := k0_cond2 i = 1#1

/-- The weight slab the body loads at a point: the point's relation's 128×128 matrix out of the resident `[2,128,128]` weights. -/
def wslab (i : grid0.Coords) (x2 : Vec F S2x128x128 .f32) : Vec F S1x128x128 .f32 :=
  View.ld x2 (Rect.unit (s := S2x128x128) (k0_off1 i) S1x128x128.size (k0_off1_inb i))

/-- What a first relation's point leaves in the output block: its product plus the bias row. -/
def stepFirst (i : grid0.Coords) (x0 : Vec F S1x400x10000 .f32) (x1 : Vec F S10000x128 .f32) (x2 : Vec F S2x128x128 .f32)
    (x3 : Vec F S1x128 .f32) : Vec F S400x128 .f32 :=
  k0_pay2 x0 x1 (wslab i x2) x3

/-- What a last relation's point leaves in the output block, over what the block held (`acc`): the sum with its product, clamped at 0. -/
def stepLast (i : grid0.Coords) (x0 : Vec F S1x400x10000 .f32) (x1 : Vec F S10000x128 .f32) (x2 : Vec F S2x128x128 .f32)
    (acc : Vec F S400x128 .f32) : Vec F S400x128 .f32 :=
  k0_pay3 x0 x1 (wslab i x2) acc

theorem zero2 : (![0, 0] : Fin S400x128.rank → Nat) = fun _ => 0 := by
  funext a; match a with | ⟨0, _⟩ => rfl | ⟨1, _⟩ => rfl
theorem zero2' : (![0, 0] : Fin S10000x128.rank → Nat) = fun _ => 0 := by
  funext a; match a with | ⟨0, _⟩ => rfl | ⟨1, _⟩ => rfl
theorem zero2'' : (![0, 0] : Fin S1x128.rank → Nat) = fun _ => 0 := by
  funext a; match a with | ⟨0, _⟩ => rfl | ⟨1, _⟩ => rfl
theorem zero3 : (![0, 0, 0] : Fin S1x400x10000.rank → Nat) = fun _ => 0 := by
  funext a; match a with | ⟨0, _⟩ => rfl | ⟨1, _⟩ => rfl | ⟨2, _⟩ => rfl

set_option maxHeartbeats 1000000 in
/-- A first relation's point, on any whole staging buffers: from the four inputs at their contents and the output block at
    anything, the body runs and hands back the inputs as they were and the output block at `stepFirst`. -/
theorem runFirst (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S2x128x128 .f32) (harg4 : arg4.IsWhole) (arg5 : Memref sig .tc .vmem S1x128 .f32) (harg5 : arg5.IsWhole) (arg6 : Memref sig .tc .vmem S400x128 .f32) (harg6 : arg6.IsWhole) (hc0 : firstRel i) (hc1 : ¬lastRel i)
    (x0 : Vec F S1x400x10000 .f32) (x1 : Vec F S10000x128 .f32) (x2 : Vec F S2x128x128 .f32) (x3 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (stepFirst i x0 x1 x2 x3)) -∗ K ⟨⟩))
          ⊢ wp frame (wpE (defs₀ (F := F)) Variants.none c none) E (cc0__rgcn_body i arg2 harg2 arg3 harg3 arg4 harg4 arg5 harg5 arg6 harg6) K := by
    intro E K
    simp only [cc0__rgcn_body_eq_skeleton]; unfold cc0__rgcn_body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    rw [View.read_writes_eq_canon _ _ _ (fun y => ⟨_, List.mem_singleton_self _, View.mem_set_unit_zero zero2 inb_S400x128_S400x128_0_0 y⟩),
      View.canon_unit_zero zero2]
    simp only [View.readAt_eq_ld, harg2.read_unread, harg3.read_unread, harg4.read_unread, harg5.read_unread,
      View.ld_unit_zero (S := S1x400x10000) zero3, View.ld_unit_zero (S := S10000x128) zero2', View.ld_unit_zero (S := S1x128) zero2'']
    rfl

set_option maxHeartbeats 1000000 in
/-- A last relation's point, on any whole staging buffers: from the inputs at their contents and the output block at `acc`,
    the body runs and hands back the inputs as they were and the output block at `stepLast` over `acc`. -/
theorem runLast (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S2x128x128 .f32) (harg4 : arg4.IsWhole) (arg5 : Memref sig .tc .vmem S1x128 .f32) (harg5 : arg5.IsWhole) (arg6 : Memref sig .tc .vmem S400x128 .f32) (harg6 : arg6.IsWhole) (hc0 : ¬firstRel i) (hc1 : lastRel i)
    (x0 : Vec F S1x400x10000 .f32) (x1 : Vec F S10000x128 .f32) (x2 : Vec F S2x128x128 .f32) (x3 : Vec F S1x128 .f32) (acc : Vec F S400x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (stepLast i x0 x1 x2 acc)) -∗ K ⟨⟩))
          ⊢ wp frame (wpE (defs₀ (F := F)) Variants.none c none) E (cc0__rgcn_body i arg2 harg2 arg3 harg3 arg4 harg4 arg5 harg5 arg6 harg6) K := by
    intro E K
    simp only [cc0__rgcn_body_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    rw [View.read_writes_eq_canon _ _ _ (fun y => ⟨_, List.mem_singleton_self _, View.mem_set_unit_zero zero2 inb_S400x128_S400x128_0_0 y⟩),
      View.canon_unit_zero zero2]
    simp only [View.readAt_eq_ld, harg2.read_unread, harg3.read_unread, harg4.read_unread, harg6.read_unread,
      View.ld_unit_zero (S := S1x400x10000) zero3, View.ld_unit_zero (S := S10000x128) zero2', View.ld_unit_zero (S := S400x128) zero2]
    rfl

end Cert.Kernel.Body

end
-- ==== Proof.RelationRunWords.lean ====
/-
  The whole pipeline's run, over ANY float instance: the grid's 50 points are 25 blocks of 400 nodes, each visited twice in a row,
  first for relation 0 and then for relation 1. The output block's staging buffer is not written back between the two visits, so
  the second visit finds what the first one left; after the second visit the block is written back. From this the proof data of the
  pipeline library are stated (what each window's buffer holds after the body at each point), the body's obligation is discharged
  point by point from the two triples, and the library's launch theorem gives the run; the frame (every argument array ends as it
  began) is read off the run's post.
-/
import proofs.«101269_g83150566851288_cont_9to1c4b_27_4_alg».proof.Proof.RelationStepWords

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- A point is a first relation's exactly when its position is even, -/
theorem first_iff : ∀ t : Fin cfg0.N, firstRel (grid0.coords t) ↔ t.val % 2 = 0 :=
  (by decide +kernel : ∀ t : Fin grid0.N, firstRel (grid0.coords t) ↔ t.val % 2 = 0)
/-- and a last relation's exactly when it is odd. -/
theorem last_iff : ∀ t : Fin cfg0.N, lastRel (grid0.coords t) ↔ t.val % 2 = 1 :=
  (by decide +kernel : ∀ t : Fin grid0.N, lastRel (grid0.coords t) ↔ t.val % 2 = 1)

/-- No window is idle at any point: the inputs never, and the output is stored into at every point (one of the two
    tests holds at each). -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live4_all : ∀ i : grid0.Coords, cfg0.idle 4 i = false := by decide +kernel

/-- The point before `t`. -/
abbrev prev (t : Fin cfg0.N) : Fin cfg0.N := ⟨t.val - 1, Nat.lt_of_le_of_lt (Nat.sub_le _ _) t.isLt⟩

/-! ## The blocks the body reads, at their literal shapes -/

/-- The 400 adjacency rows of the point's block and relation, -/
abbrev adjBlk (c : Dev nD) (t : Fin cfg0.N) : Vec F S1x400x10000 .f32 := iblk m c 0 t
/-- the node features (resident: the whole array at every point), -/
abbrev featBlk (c : Dev nD) (t : Fin cfg0.N) : Vec F S10000x128 .f32 := iblk m c 1 t
/-- the weights (resident), -/
abbrev wtsBlk (c : Dev nD) (t : Fin cfg0.N) : Vec F S2x128x128 .f32 := iblk m c 2 t
/-- the bias row (resident). -/
abbrev biasBlk (c : Dev nD) (t : Fin cfg0.N) : Vec F S1x128 .f32 := iblk m c 3 t

/-! ## What the output block holds after each point -/

/-- After a first relation's point: that relation's product plus the bias. -/
def firstAt (c : Dev nD) (t : Fin cfg0.N) : Vec F S400x128 .f32 :=
  stepFirst (grid0.coords t) (adjBlk m c t) (featBlk m c t) (wtsBlk m c t) (biasBlk m c t)

/-- After any point: a first relation's point starts the block; a last relation's point finishes what the point before started. -/
def blockAfter (c : Dev nD) (t : Fin cfg0.N) : Vec F S400x128 .f32 :=
  if t.val % 2 = 0 then firstAt m c t
  else stepLast (grid0.coords t) (adjBlk m c t) (featBlk m c t) (wtsBlk m c t) (firstAt m c (prev t))

theorem blockAfter_first (c : Dev nD) (t : Fin cfg0.N) (h : t.val % 2 = 0) : blockAfter m c t = firstAt m c t := by
  unfold blockAfter; rw [if_pos h]
theorem blockAfter_last (c : Dev nD) (t : Fin cfg0.N) (h : ¬t.val % 2 = 0) :
    blockAfter m c t = stepLast (grid0.coords t) (adjBlk m c t) (featBlk m c t) (wtsBlk m c t) (firstAt m c (prev t)) := by
  unfold blockAfter; rw [if_neg h]

/-! ## The pipeline's proof data -/

/-- On core `c`: the arrays as the region finds them; after the body at point `t` each input's buffer at its block and the
    output's at `blockAfter`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAfter m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blockAfter m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a last relation's point the output's staging buffer holds what the first relation's point just before it left: the
    point is not the first, and the block was not written back in between (write-backs happen after odd positions only). -/
theorem before_4_last (c : Dev nD) (t : Fin cfg0.N) (h : ¬t.val % 2 = 0) (d) :
    (dats m 0 c).before 4 t d = firstAt m c (prev t) := by
  have hN : t.val < 50 := lt_of_lt_of_eq t.isLt (show cfg0.N = 50 from N_0)
  rw [Dat.before_out_kept _ 4 rfl t (by omega) (Bool.eq_false_iff.mpr fun h' => by have := (flush0_4 _).mp h'; dsimp only at this; omega)
    live4_all (fun _ _ => rfl)]
  rw [after_4]
  exact blockAfter_first m c _ (by dsimp only; omega)

/-! ## The body obligation -/

/-- The current staging memref of each window at point `t`, as the pipeline passes it to the body. -/
abbrev ms0 (t : Fin cfg0.N) : Memref sig .tc .vmem S1x400x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S2x128x128 .f32 := win0_2.stage (cfg0.slots t 2)
abbrev ms3 (t : Fin cfg0.N) : Memref sig .tc .vmem S1x128 .f32 := win0_3.stage (cfg0.slots t 3)
abbrev ms4 (t : Fin cfg0.N) : Memref sig .tc .vmem S400x128 .f32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
/-- The body at any point: the inputs' buffers hold their blocks; at an even position the first relation's triple applies,
    whatever the output's buffer holds; at an odd one the last relation's, the output's buffer holding what the point before
    left. The invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  have hN : t.val < 50 := lt_of_lt_of_eq t.isLt (show cfg0.N = 50 from N_0)
  by_cases h0 : t.val % 2 = 0
  · have h1 : ¬t.val % 2 = 1 := by omega
    rw [blockAfter_first m c t h0]
    unfold firstAt
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (fun h => h1 ((last_iff t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have h1 : t.val % 2 = 1 := by omega
    rw [blockAfter_last m c t h0]
    simp only [before_4_last m c t h0]
    iintro ⟨HΦ, Ho, ⟨%d0, H0⟩, ⟨%d1, H1⟩, ⟨%d2, H2⟩, ⟨%d3, H3⟩, ⟨%d4, H4⟩⟩
    iapply ((runLast c (grid0.coords t) _ _ _ _ _ _ _ _ _ _ (fun h => h0 ((first_iff t).mp h)) ((last_iff t).mpr h1) (iblk m c 0 t) (iblk m c 1 t) (iblk m c 2 t) (iblk m c 3 t) (firstAt m c (prev t))) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state each
    array of the pipeline holds what the library computes from the proof data (an input its entry contents, the output those
    overwritten by each write-back) and every other unscoped buffer what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.RelationStep.lean ====
/-
  The kernel body at one grid point, as a triple in the program logic over ANY float instance: what it needs of its five
  staging buffers and what it leaves in them. The two kinds of point (first relation, last relation) are run separately; each
  leaves the four inputs untouched and the output block at a value named from the inputs' contents (and, at a last relation's
  point, from what the output block held).
-/
import proofs.«101269_g83150566851288_cont_9to1c4b_27_4_alg».proof.Proof.Gen.KernelIdeal.Frame
import proofs.«101269_g83150566851288_cont_9to1c4b_27_4_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes

A grid point is a block of 400 nodes and one relation. The body multiplies the point's 400 rows of the relation's adjacency
matrix by the node features, multiplies the result by the relation's 128×128 weight slab, and then either starts the block's
accumulator (relation 0: product plus bias) or finishes it (relation 1: what the accumulator held plus the product, clamped at 0). -/

/-- The point is a first relation's (`rel == 0`), as the body tests it. -/
abbrev firstRel (i : grid0.Coords) : Prop := k0_cond1 i = 1#1
/-- The point is a last relation's (`rel == 1`), as the body tests it. -/
abbrev lastRel (i : grid0.Coords) : Prop := k0_cond2 i = 1#1

/-- The weight slab the body loads at a point: the point's relation's 128×128 matrix out of the resident `[2,128,128]` weights. -/
def wslab (i : grid0.Coords) (x2 : Vec F S2x128x128 .f32) : Vec F S1x128x128 .f32 :=
  View.ld x2 (Rect.unit (s := S2x128x128) (k0_off1 i) S1x128x128.size (k0_off1_inb i))

/-- What a first relation's point leaves in the output block: its product plus the bias row. -/
def stepFirst (i : grid0.Coords) (x0 : Vec F S1x400x10000 .f32) (x1 : Vec F S10000x128 .f32) (x2 : Vec F S2x128x128 .f32)
    (x3 : Vec F S1x128 .f32) : Vec F S400x128 .f32 :=
  k0_pay2 x0 x1 (wslab i x2) x3

/-- What a last relation's point leaves in the output block, over what the block held (`acc`): the sum with its product, clamped at 0. -/
def stepLast (i : grid0.Coords) (x0 : Vec F S1x400x10000 .f32) (x1 : Vec F S10000x128 .f32) (x2 : Vec F S2x128x128 .f32)
    (acc : Vec F S400x128 .f32) : Vec F S400x128 .f32 :=
  k0_pay3 x0 x1 (wslab i x2) acc

theorem zero2 : (![0, 0] : Fin S400x128.rank → Nat) = fun _ => 0 := by
  funext a; match a with | ⟨0, _⟩ => rfl | ⟨1, _⟩ => rfl
theorem zero2' : (![0, 0] : Fin S10000x128.rank → Nat) = fun _ => 0 := by
  funext a; match a with | ⟨0, _⟩ => rfl | ⟨1, _⟩ => rfl
theorem zero2'' : (![0, 0] : Fin S1x128.rank → Nat) = fun _ => 0 := by
  funext a; match a with | ⟨0, _⟩ => rfl | ⟨1, _⟩ => rfl
theorem zero3 : (![0, 0, 0] : Fin S1x400x10000.rank → Nat) = fun _ => 0 := by
  funext a; match a with | ⟨0, _⟩ => rfl | ⟨1, _⟩ => rfl | ⟨2, _⟩ => rfl

set_option maxHeartbeats 1000000 in
/-- A first relation's point, on any whole staging buffers: from the four inputs at their contents and the output block at
    anything, the body runs and hands back the inputs as they were and the output block at `stepFirst`. -/
theorem runFirst (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S2x128x128 .f32) (harg4 : arg4.IsWhole) (arg5 : Memref sig .tc .vmem S1x128 .f32) (harg5 : arg5.IsWhole) (arg6 : Memref sig .tc .vmem S400x128 .f32) (harg6 : arg6.IsWhole) (hc0 : firstRel i) (hc1 : ¬lastRel i)
    (x0 : Vec F S1x400x10000 .f32) (x1 : Vec F S10000x128 .f32) (x2 : Vec F S2x128x128 .f32) (x3 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (stepFirst i x0 x1 x2 x3)) -∗ K ⟨⟩))
          ⊢ wp frame (wpE (defs₀ (F := F)) Variants.none c none) E (cc0__rgcn_body i arg2 harg2 arg3 harg3 arg4 harg4 arg5 harg5 arg6 harg6) K := by
    intro E K
    simp only [cc0__rgcn_body_eq_skeleton]; unfold cc0__rgcn_body_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    rw [View.read_writes_eq_canon _ _ _ (fun y => ⟨_, List.mem_singleton_self _, View.mem_set_unit_zero zero2 inb_S400x128_S400x128_0_0 y⟩),
      View.canon_unit_zero zero2]
    simp only [View.readAt_eq_ld, harg2.read_unread, harg3.read_unread, harg4.read_unread, harg5.read_unread,
      View.ld_unit_zero (S := S1x400x10000) zero3, View.ld_unit_zero (S := S10000x128) zero2', View.ld_unit_zero (S := S1x128) zero2'']
    rfl

set_option maxHeartbeats 1000000 in
/-- A last relation's point, on any whole staging buffers: from the inputs at their contents and the output block at `acc`,
    the body runs and hands back the inputs as they were and the output block at `stepLast` over `acc`. -/
theorem runLast (c : Dev nD) (i : grid0.Coords) (arg2 : Memref sig .tc .vmem S1x400x10000 .f32) (harg2 : arg2.IsWhole) (arg3 : Memref sig .tc .vmem S10000x128 .f32) (harg3 : arg3.IsWhole) (arg4 : Memref sig .tc .vmem S2x128x128 .f32) (harg4 : arg4.IsWhole) (arg5 : Memref sig .tc .vmem S1x128 .f32) (harg5 : arg5.IsWhole) (arg6 : Memref sig .tc .vmem S400x128 .f32) (harg6 : arg6.IsWhole) (hc0 : ¬firstRel i) (hc1 : lastRel i)
    (x0 : Vec F S1x400x10000 .f32) (x1 : Vec F S10000x128 .f32) (x2 : Vec F S2x128x128 .f32) (x3 : Vec F S1x128 .f32) (acc : Vec F S400x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare acc
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (stepLast i x0 x1 x2 acc)) -∗ K ⟨⟩))
          ⊢ wp frame (wpE (defs₀ (F := F)) Variants.none c none) E (cc0__rgcn_body i arg2 harg2 arg3 harg3 arg4 harg4 arg5 harg5 arg6 harg6) K := by
    intro E K
    simp only [cc0__rgcn_body_eq_skeleton]; unfold cc0__rgcn_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr; swap; · iexact H4
    ipureintro
    rw [View.read_writes_eq_canon _ _ _ (fun y => ⟨_, List.mem_singleton_self _, View.mem_set_unit_zero zero2 inb_S400x128_S400x128_0_0 y⟩),
      View.canon_unit_zero zero2]
    simp only [View.readAt_eq_ld, harg2.read_unread, harg3.read_unread, harg4.read_unread, harg6.read_unread,
      View.ld_unit_zero (S := S1x400x10000) zero3, View.ld_unit_zero (S := S10000x128) zero2', View.ld_unit_zero (S := S400x128) zero2]
    rfl

end Cert.KernelIdeal.Body

end
-- ==== Proof.RelationRun.lean ====
/-
  The whole pipeline's run, over ANY float instance: the grid's 50 points are 25 blocks of 400 nodes, each visited twice in a row,
  first for relation 0 and then for relation 1. The output block's staging buffer is not written back between the two visits, so
  the second visit finds what the first one left; after the second visit the block is written back. From this the proof data of the
  pipeline library are stated (what each window's buffer holds after the body at each point), the body's obligation is discharged
  point by point from the two triples, and the library's launch theorem gives the run; the frame (every argument array ends as it
  began) is read off the run's post.
-/
import proofs.«101269_g83150566851288_cont_9to1c4b_27_4_alg».proof.Proof.RelationStep

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- A point is a first relation's exactly when its position is even, -/
theorem first_iff : ∀ t : Fin cfg0.N, firstRel (grid0.coords t) ↔ t.val % 2 = 0 :=
  (by decide +kernel : ∀ t : Fin grid0.N, firstRel (grid0.coords t) ↔ t.val % 2 = 0)
/-- and a last relation's exactly when it is odd. -/
theorem last_iff : ∀ t : Fin cfg0.N, lastRel (grid0.coords t) ↔ t.val % 2 = 1 :=
  (by decide +kernel : ∀ t : Fin grid0.N, lastRel (grid0.coords t) ↔ t.val % 2 = 1)

/-- No window is idle at any point: the inputs never, and the output is stored into at every point (one of the two
    tests holds at each). -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live4_all : ∀ i : grid0.Coords, cfg0.idle 4 i = false := by decide +kernel

/-- The point before `t`. -/
abbrev prev (t : Fin cfg0.N) : Fin cfg0.N := ⟨t.val - 1, Nat.lt_of_le_of_lt (Nat.sub_le _ _) t.isLt⟩

/-! ## The blocks the body reads, at their literal shapes -/

/-- The 400 adjacency rows of the point's block and relation, -/
abbrev adjBlk (c : Dev nD) (t : Fin cfg0.N) : Vec F S1x400x10000 .f32 := iblk m c 0 t
/-- the node features (resident: the whole array at every point), -/
abbrev featBlk (c : Dev nD) (t : Fin cfg0.N) : Vec F S10000x128 .f32 := iblk m c 1 t
/-- the weights (resident), -/
abbrev wtsBlk (c : Dev nD) (t : Fin cfg0.N) : Vec F S2x128x128 .f32 := iblk m c 2 t
/-- the bias row (resident). -/
abbrev biasBlk (c : Dev nD) (t : Fin cfg0.N) : Vec F S1x128 .f32 := iblk m c 3 t

/-! ## What the output block holds after each point -/

/-- After a first relation's point: that relation's product plus the bias. -/
def firstAt (c : Dev nD) (t : Fin cfg0.N) : Vec F S400x128 .f32 :=
  stepFirst (grid0.coords t) (adjBlk m c t) (featBlk m c t) (wtsBlk m c t) (biasBlk m c t)

/-- After any point: a first relation's point starts the block; a last relation's point finishes what the point before started. -/
def blockAfter (c : Dev nD) (t : Fin cfg0.N) : Vec F S400x128 .f32 :=
  if t.val % 2 = 0 then firstAt m c t
  else stepLast (grid0.coords t) (adjBlk m c t) (featBlk m c t) (wtsBlk m c t) (firstAt m c (prev t))

theorem blockAfter_first (c : Dev nD) (t : Fin cfg0.N) (h : t.val % 2 = 0) : blockAfter m c t = firstAt m c t := by
  unfold blockAfter; rw [if_pos h]
theorem blockAfter_last (c : Dev nD) (t : Fin cfg0.N) (h : ¬t.val % 2 = 0) :
    blockAfter m c t = stepLast (grid0.coords t) (adjBlk m c t) (featBlk m c t) (wtsBlk m c t) (firstAt m c (prev t)) := by
  unfold blockAfter; rw [if_neg h]

/-! ## The pipeline's proof data -/

/-- On core `c`: the arrays as the region finds them; after the body at point `t` each input's buffer at its block and the
    output's at `blockAfter`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAfter m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blockAfter m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a last relation's point the output's staging buffer holds what the first relation's point just before it left: the
    point is not the first, and the block was not written back in between (write-backs happen after odd positions only). -/
theorem before_4_last (c : Dev nD) (t : Fin cfg0.N) (h : ¬t.val % 2 = 0) (d) :
    (dats m 0 c).before 4 t d = firstAt m c (prev t) := by
  have hN : t.val < 50 := lt_of_lt_of_eq t.isLt (show cfg0.N = 50 from N_0)
  rw [Dat.before_out_kept _ 4 rfl t (by omega) (Bool.eq_false_iff.mpr fun h' => by have := (flush0_4 _).mp h'; dsimp only at this; omega)
    live4_all (fun _ _ => rfl)]
  rw [after_4]
  exact blockAfter_first m c _ (by dsimp only; omega)

/-! ## The body obligation -/

/-- The current staging memref of each window at point `t`, as the pipeline passes it to the body. -/
abbrev ms0 (t : Fin cfg0.N) : Memref sig .tc .vmem S1x400x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S2x128x128 .f32 := win0_2.stage (cfg0.slots t 2)
abbrev ms3 (t : Fin cfg0.N) : Memref sig .tc .vmem S1x128 .f32 := win0_3.stage (cfg0.slots t 3)
abbrev ms4 (t : Fin cfg0.N) : Memref sig .tc .vmem S400x128 .f32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
/-- The body at any point: the inputs' buffers hold their blocks; at an even position the first relation's triple applies,
    whatever the output's buffer holds; at an odd one the last relation's, the output's buffer holding what the point before
    left. The invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
    unfold Dat.leavesExact; rw [live0 t], after_0]
  rw [show (dats m 0 c).leavesExact 1 t = owns (c : Thread nD τ) (ms1 t) fullShare ((dats m 0 c).after 1 t) from by
    unfold Dat.leavesExact; rw [live1 t], after_1]
  rw [show (dats m 0 c).leavesExact 2 t = owns (c : Thread nD τ) (ms2 t) fullShare ((dats m 0 c).after 2 t) from by
    unfold Dat.leavesExact; rw [live2 t], after_2]
  rw [show (dats m 0 c).leavesExact 3 t = owns (c : Thread nD τ) (ms3 t) fullShare ((dats m 0 c).after 3 t) from by
    unfold Dat.leavesExact; rw [live3 t], after_3]
  rw [show (dats m 0 c).leavesExact 4 t = owns (c : Thread nD τ) (ms4 t) fullShare ((dats m 0 c).after 4 t) from by
    unfold Dat.leavesExact; rw [live4 t], after_4]
  have hN : t.val < 50 := lt_of_lt_of_eq t.isLt (show cfg0.N = 50 from N_0)
  by_cases h0 : t.val % 2 = 0
  · have h1 : ¬t.val % 2 = 1 := by omega
    rw [blockAfter_first m c t h0]
    unfold firstAt
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((first_iff t).mpr h0) (fun h => h1 ((last_iff t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have h1 : t.val % 2 = 1 := by omega
    rw [blockAfter_last m c t h0]
    simp only [before_4_last m c t h0]
    iintro ⟨HΦ, Ho, ⟨%d0, H0⟩, ⟨%d1, H1⟩, ⟨%d2, H2⟩, ⟨%d3, H3⟩, ⟨%d4, H4⟩⟩
    iapply ((runLast c (grid0.coords t) _ _ _ _ _ _ _ _ _ _ (fun h => h0 ((first_iff t).mp h)) ((last_iff t).mpr h1) (iblk m c 0 t) (iblk m c 1 t) (iblk m c 2 t) (iblk m c 3 t) (firstAt m c (prev t))) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state each
    array of the pipeline holds what the library computes from the proof data (an input its entry contents, the output those
    overwritten by each write-back) and every other unscoped buffer what it held when the region was entered. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.StepValue.lean ====
/-
  The body's three stored values, read at one entry of the 400×128 block, on the extended reals.

  The body's product at a point is two matrix products in a row: the 400 adjacency rows against the node features (a sum over the
  10000 source nodes), then the result against the relation's 128×128 weight slab (a sum over the 128 input features). A first
  relation's point stores that product plus the bias row; a last relation's point stores what the block held plus the product,
  clamped at zero.
-/
import proofs.«101269_g83150566851288_cont_9to1c4b_27_4_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.StepValue

open Cert.KernelIdeal Cert.KernelIdeal.Gen
open Idealize.ShloMosaic Idealize.ShloMosaic.ValueIdx

/-- In the first product (adjacency rows times features), the left operand's row coordinate is the output's row. -/
theorem lhs_mm1_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- In the first product (adjacency rows times features), the left operand's column coordinate is the contraction coordinate. -/
theorem lhs_mm1_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- In the first product (adjacency rows times features), the right operand's row coordinate is the contraction coordinate. -/
theorem rhs_mm1_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- In the first product (adjacency rows times features), the right operand's column coordinate is the output's column. -/
theorem rhs_mm1_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The first product into a zero accumulator, at row `p` and column `q`: the sum over the 10000 source nodes `k` of the left operand at `(p, k)` times the right at `(k, q)`. -/
theorem mm1_apply (lhs : FVec Ideal S400x10000 .f32) (rhs : FVec Ideal S10000x128 .f32) (p : Fin 400) (q : Fin 128) :
    matmul (F := Ideal) dot_S400x10000_S10000x128_S400x128_1_0_0_1_n_n none lhs rhs (constant S400x128 .f32 0x00000000#32) (ix2 p q)
      = ∑ k : Fin 10000, lhs (ix2 p k) * rhs (ix2 k q) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhs_mm1_0 _ _
    | ⟨1, _⟩ => exact (lhs_mm1_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (rhs_mm1_0 _ _).trans hk
    | ⟨1, _⟩ => exact rhs_mm1_1 _ _)
  rw [el, er]

/-- In the second product (aggregated rows times the weight slab), the left operand's row coordinate is the output's row. -/
theorem lhs_mm2_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- In the second product (aggregated rows times the weight slab), the left operand's column coordinate is the contraction coordinate. -/
theorem lhs_mm2_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- In the second product (aggregated rows times the weight slab), the right operand's row coordinate is the contraction coordinate. -/
theorem rhs_mm2_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- In the second product (aggregated rows times the weight slab), the right operand's column coordinate is the output's column. -/
theorem rhs_mm2_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The second product into a zero accumulator, at row `p` and column `q`: the sum over the 128 input features `j` of the left operand at `(p, j)` times the right at `(j, q)`. -/
theorem mm2_apply (lhs : FVec Ideal S400x128 .f32) (rhs : FVec Ideal S128x128 .f32) (p : Fin 400) (q : Fin 128) :
    matmul (F := Ideal) dot_S400x128_S128x128_S400x128_1_0_0_1_n_n none lhs rhs (constant S400x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact lhs_mm2_0 _ _
    | ⟨1, _⟩ => exact (lhs_mm2_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (rhs_mm2_0 _ _).trans hk
    | ⟨1, _⟩ => exact rhs_mm2_1 _ _)
  rw [el, er]

/-- The adjacency block with its leading unit axis dropped, at `(p, k)`, is the block at `(0, p, k)`. -/
theorem cast_adj_apply (v0 : Vec Ideal S1x400x10000 .f32) (h : S1x400x10000.ShapeCasts S400x10000) (p : Fin 400) (k : Fin 10000) :
    shapeCast S400x10000 v0 h (ix2 p k) = v0 (ix3 (0 : Fin 1) p k) := by
  refine (shapeCast_dropUnit_apply ![400, 10000] v0 h (ix2 p k)).trans ?_
  exact congrArg v0 (funext fun a => match a with | ⟨0, _⟩ => rfl | ⟨1, _⟩ => rfl | ⟨2, _⟩ => rfl)

/-- The weight slab with its leading unit axis dropped, at `(j, q)`, is the slab at `(0, j, q)`. -/
theorem cast_w_apply (v5 : Vec Ideal S1x128x128 .f32) (h : S1x128x128.ShapeCasts S128x128) (j q : Fin 128) :
    shapeCast S128x128 v5 h (ix2 j q) = v5 (ix3 (0 : Fin 1) j q) := by
  refine (shapeCast_dropUnit_apply ![128, 128] v5 h (ix2 j q)).trans ?_
  exact congrArg v5 (funext fun a => match a with | ⟨0, _⟩ => rfl | ⟨1, _⟩ => rfl | ⟨2, _⟩ => rfl)

/-- The bias row broadcast down the 400 rows, at `(p, q)`, is the row's entry `(0, q)`. -/
theorem bcast_bias_apply (x : Vec Ideal S1x128 .f32) (h : S1x128.Broadcasts S400x128) (p : Fin 400) (q : Fin 128) :
    broadcastTo S400x128 x h (ix2 p q) = x (ix2 (0 : Fin 1) q) := by
  refine broadcastTo_apply x h (ix2 p q) (ix2 (0 : Fin 1) q) fun a => ?_
  match a with
  | ⟨0, _⟩ => rfl
  | ⟨1, _⟩ => rfl

/-- The point's product at row `p`, column `q`: the sum over input features `j` of (the sum over source nodes `k` of adjacency
    times feature) times weight. -/
theorem pay1_apply (v0 : Vec Ideal S1x400x10000 .f32) (v2 : Vec Ideal S10000x128 .f32) (v5 : Vec Ideal S1x128x128 .f32)
    (p : Fin 400) (q : Fin 128) :
    k0_pay1 (F := Ideal) v0 v2 v5 (ix2 p q)
      = ∑ j : Fin 128, (∑ k : Fin 10000, v0 (ix3 (0 : Fin 1) p k) * v2 (ix2 k j)) * v5 (ix3 (0 : Fin 1) j q) := by
  unfold k0_pay1
  refine (mm2_apply _ _ p q).trans ?_
  refine Finset.sum_congr rfl fun j _ => ?_
  refine congrArg₂ (· * ·) ?_ (cast_w_apply v5 _ j q)
  refine (mm1_apply _ _ p j).trans ?_
  exact Finset.sum_congr rfl fun k _ => congrArg (· * v2 (ix2 k j)) (cast_adj_apply v0 _ p k)

/-- A first relation's stored value: the product plus the bias row's entry. -/
theorem pay2_apply (v0 : Vec Ideal S1x400x10000 .f32) (v2 : Vec Ideal S10000x128 .f32) (v5 : Vec Ideal S1x128x128 .f32)
    (v14 : Vec Ideal S1x128 .f32) (p : Fin 400) (q : Fin 128) :
    k0_pay2 (F := Ideal) v0 v2 v5 v14 (ix2 p q) = k0_pay1 (F := Ideal) v0 v2 v5 (ix2 p q) + v14 (ix2 (0 : Fin 1) q) := by
  unfold k0_pay2
  refine (addf_apply _ _ (ix2 p q)).trans ?_
  refine congrArg (k0_pay1 (F := Ideal) v0 v2 v5 (ix2 p q) + ·) ?_
  refine (bcast_bias_apply _ _ p q).trans ?_
  exact congrFun (shapeCast_self v14 _) (ix2 (0 : Fin 1) q)

/-- A last relation's stored value: what the block held plus the product, clamped at zero. -/
theorem pay3_apply (v0 : Vec Ideal S1x400x10000 .f32) (v2 : Vec Ideal S10000x128 .f32) (v5 : Vec Ideal S1x128x128 .f32)
    (acc : Vec Ideal S400x128 .f32) (p : Fin 400) (q : Fin 128) :
    k0_pay3 (F := Ideal) v0 v2 v5 acc (ix2 p q) = max (acc (ix2 p q) + k0_pay1 (F := Ideal) v0 v2 v5 (ix2 p q)) 0 := by
  unfold k0_pay3
  refine (maximumf_apply _ _ (ix2 p q)).trans ?_
  refine congrArg₂ max ?_ ?_
  · refine (addf_apply _ _ (ix2 p q)).trans ?_
    exact congrArg (· + k0_pay1 (F := Ideal) v0 v2 v5 (ix2 p q)) (congrFun (shapeCast_self acc _) (ix2 p q))
  · exact Ideal.ofBits_zero_f32

end Cert.KernelIdeal.StepValue

end
-- ==== Proof.Spec.lean ====
/-
  A relational graph-convolution layer over two relations, as ONE function of its four arrays.

  With node features x : [10000,128], adjacency a : [2,10000,10000], weights w : [2,128,128] and bias b : [128], relation r
  sends row i of a[r] against x (the message, a sum over the 10000 source nodes k) and the message against w[r] (a sum over the
  128 input features j); the layer's entry (i,l) is the positive part of the two relations' products plus the bias. Everything is
  read on the extended reals, where addition is a commutative monoid: the order in which the bias and the two products are added
  does not matter, and no entry need be finite.
-/
import Idealize.ShloMosaic.PureOps.Ideal
import Idealize.ShloMosaic.Lib.ValueIdx

noncomputable section

namespace Cert.Rgcn

open Idealize.ShloMosaic Idealize.ShloMosaic.ValueIdx

/-- The four arrays' shapes, and the result's (that of the features). -/
abbrev Feat : Shape := ⟨2, ![10000, 128]⟩
abbrev Adj : Shape := ⟨3, ![2, 10000, 10000]⟩
abbrev Wts : Shape := ⟨3, ![2, 128, 128]⟩
abbrev Bias : Shape := ⟨1, ![128]⟩

/-- Relation `r`'s message at node `i`, feature `j`: row `i` of `a[r]` against column `j` of `x`. -/
def message (x : Feat.Idx → EReal) (a : Adj.Idx → EReal) (r : Fin 2) (i : Fin 10000) (j : Fin 128) : EReal :=
  ∑ k : Fin 10000, a (ix3 r i k) * x (ix2 k j)

/-- Relation `r`'s product at node `i`, output feature `l`: the message's row `i` against column `l` of `w[r]`. -/
def relOut (x : Feat.Idx → EReal) (a : Adj.Idx → EReal) (w : Wts.Idx → EReal) (r : Fin 2) (i : Fin 10000) (l : Fin 128) : EReal :=
  ∑ j : Fin 128, message x a r i j * w (ix3 r j l)

/-- The layer's entry at node `i`, output feature `l`: relation 0's product plus the bias, plus relation 1's product, clamped at 0. -/
def layerAt (x : Feat.Idx → EReal) (a : Adj.Idx → EReal) (w : Wts.Idx → EReal) (b : Bias.Idx → EReal) (i : Fin 10000) (l : Fin 128) : EReal :=
  max ((relOut x a w 0 i l + b (ix1 l)) + relOut x a w 1 i l) 0

/-- The layer's result array. -/
def layer (x : Feat.Idx → EReal) (a : Adj.Idx → EReal) (w : Wts.Idx → EReal) (b : Bias.Idx → EReal) : Feat.Idx → EReal :=
  fun y => layerAt x a w b (y 0) (y 1)

theorem layer_apply (x : Feat.Idx → EReal) (a : Adj.Idx → EReal) (w : Wts.Idx → EReal) (b : Bias.Idx → EReal) (i : Fin 10000) (l : Fin 128) :
    layer x a w b (ix2 i l) = layerAt x a w b i l := rfl

/-- Summing the two products first (from zero) and adding the bias last is the same entry: addition on the extended reals is
    commutative and associative, infinities included. -/
theorem sum_then_bias (p0 p1 b : EReal) : (0 + (p0 + p1)) + b = (p0 + b) + p1 := by
  rw [zero_add, add_right_comm]

end Cert.Rgcn

end
-- ==== Proof.KernelValue.lean ====
/-
  What the kernel's result array holds after the run, on the extended reals: the layer's function of the four argument arrays.

  Position t of the grid is block t / 2 of 400 nodes and relation t % 2. The adjacency window's block there is rows
  400·(t/2) … 400·(t/2)+399 of relation t % 2's matrix; the features, weights and bias windows hold their whole arrays at every
  point, and the body picks relation t % 2's slab out of the weights. So an even position leaves, at row p and column q of the
  output block, relation 0's product at node 400·(t/2)+p plus the bias at q; the odd position after it adds relation 1's product at
  the same node and clamps at zero — the layer's entry. Only odd positions write the block back, block t / 2 of the result; the
  25 of them tile the 10000 rows.
-/
import proofs.«101269_g83150566851288_cont_9to1c4b_27_4_alg».proof.Proof.RelationRun
import proofs.«101269_g83150566851288_cont_9to1c4b_27_4_alg».proof.Proof.StepValue
import proofs.«101269_g83150566851288_cont_9to1c4b_27_4_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.KernelValue

open Cert.KernelIdeal Cert.KernelIdeal.Gen Cert.KernelIdeal.Body Cert.KernelIdeal.StepValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays, at their literal shapes -/

abbrev featArr (c : Dev nD) : Vec Ideal S10000x128 .f32 := m ((c : Thread nD τ).loc main_arg0)
abbrev adjArr (c : Dev nD) : Vec Ideal S2x10000x10000 .f32 := m ((c : Thread nD τ).loc main_arg1)
abbrev wtsArr (c : Dev nD) : Vec Ideal S2x128x128 .f32 := m ((c : Thread nD τ).loc main_arg2)
abbrev biasArr (c : Dev nD) : Vec Ideal S128 .f32 := m ((c : Thread nD τ).loc main_arg3)

/-- The layer's function of the argument arrays on core `c`. -/
abbrev result (c : Dev nD) : Vec Ideal S10000x128 .f32 :=
  Cert.Rgcn.layer (featArr m c) (adjArr m c) (wtsArr m c) (biasArr m c)

/-! ## Where each window's block sits, decided over the 50 positions -/

/-- Position `t`: the adjacency block is relation `t % 2`'s row block `t / 2`; the resident windows sit at block 0; the output
    block is row block `t / 2`; the weight slab the body loads is relation `t % 2`'s. -/
theorem where_ : ∀ t : Fin cfg0.N,
    win0_0.index t (0 : Fin 3) = t.val % 2 ∧ win0_0.index t (1 : Fin 3) = t.val / 2 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val / 2 ∧ win0_4.index t (1 : Fin 2) = 0
    ∧ k0_off1 (grid0.coords t) = ![t.val % 2, 0, 0] :=
  (by decide +kernel : ∀ t : Fin grid0.N, _)

/-- Every row block is some odd position's. -/
theorem block_onto : ∀ q0 : Fin 25, ∃ t : Fin cfg0.N, t.val = 2 * q0.val + 1 :=
  (by decide +kernel : ∀ q0 : Fin 25, ∃ t : Fin grid0.N, t.val = 2 * q0.val + 1)

/-- The node a block row stands for. -/
abbrev node (t : Fin cfg0.N) (p : Fin 400) : Fin 10000 :=
  ⟨t.val / 2 * 400 + p.val, by have := t.isLt; have hN : cfg0.N = 50 := N_0; have := p.isLt; omega⟩
/-- The relation a position stands for. -/
abbrev rel (t : Fin cfg0.N) : Fin 2 := ⟨t.val % 2, Nat.mod_lt _ (by decide)⟩

/-! ## The blocks, read at an entry -/

/-- The adjacency block's entry (p, k) is relation `t % 2`'s matrix at (node, k). -/
theorem adj_entry (c : Dev nD) (t : Fin cfg0.N) (p : Fin 400) (k : Fin 10000) :
    adjBlk m c t (ix3 (0 : Fin 1) p k) = adjArr m c (ix3 (rel t) (node t p) k) := by
  obtain ⟨e0, e1, e2, -⟩ := where_ t
  show V m c main_arg1 (((cfg0.win 0).blk t).view.emb (ix3 (0 : Fin 1) p k)) = _
  rw [V_main_arg1]
  refine congrArg (adjArr m c) (funext fun a => Fin.ext ?_)
  match a with
  | ⟨0, _⟩ => show win0_0.index t (0 : Fin 3) * 1 + 1 * 0 = t.val % 2; omega
  | ⟨1, _⟩ => show win0_0.index t (1 : Fin 3) * 400 + 1 * p.val = t.val / 2 * 400 + p.val; omega
  | ⟨2, _⟩ => show win0_0.index t (2 : Fin 3) * 10000 + 1 * k.val = k.val; omega

/-- The features block is the whole array. -/
theorem feat_entry (c : Dev nD) (t : Fin cfg0.N) (k : Fin 10000) (j : Fin 128) :
    featBlk m c t (ix2 k j) = featArr m c (ix2 k j) := by
  obtain ⟨-, -, -, e0, e1, -⟩ := where_ t
  show V m c main_arg0 (((cfg0.win 1).blk t).view.emb (ix2 k j)) = _
  rw [V_main_arg0]
  refine congrArg (featArr m c) (funext fun a => Fin.ext ?_)
  match a with
  | ⟨0, _⟩ => show win0_1.index t (0 : Fin 2) * 10000 + 1 * k.val = k.val; omega
  | ⟨1, _⟩ => show win0_1.index t (1 : Fin 2) * 128 + 1 * j.val = j.val; omega

/-- The slab the body loads out of the weights block is relation `t % 2`'s matrix. -/
theorem slab_entry (c : Dev nD) (t : Fin cfg0.N) (j : Fin 128) (q : Fin 128) :
    wslab (grid0.coords t) (wtsBlk m c t) (ix3 (0 : Fin 1) j q) = wtsArr m c (ix3 (rel t) j q) := by
  obtain ⟨-, -, -, -, -, e0, e1, e2, -, -, -, -, eo⟩ := where_ t
  have eo0 : k0_off1 (grid0.coords t) (0 : Fin 3) = t.val % 2 := by rw [eo]; rfl
  have eo1 : k0_off1 (grid0.coords t) (1 : Fin 3) = 0 := by rw [eo]; rfl
  have eo2 : k0_off1 (grid0.coords t) (2 : Fin 3) = 0 := by rw [eo]; rfl
  show V m c main_arg2 (((cfg0.win 2).blk t).view.emb
    ((Rect.unit (s := S2x128x128) (k0_off1 (grid0.coords t)) S1x128x128.size (k0_off1_inb (grid0.coords t))).idx (ix3 (0 : Fin 1) j q))) = _
  rw [V_main_arg2]
  refine congrArg (wtsArr m c) (funext fun a => Fin.ext ?_)
  match a with
  | ⟨0, _⟩ => show win0_2.index t (0 : Fin 3) * 2 + 1 * (k0_off1 (grid0.coords t) (0 : Fin 3) + 1 * 0) = t.val % 2; omega
  | ⟨1, _⟩ => show win0_2.index t (1 : Fin 3) * 128 + 1 * (k0_off1 (grid0.coords t) (1 : Fin 3) + 1 * j.val) = j.val; omega
  | ⟨2, _⟩ => show win0_2.index t (2 : Fin 3) * 128 + 1 * (k0_off1 (grid0.coords t) (2 : Fin 3) + 1 * q.val) = q.val; omega

/-- The bias window's array is the bias argument with a unit axis in front (the one host operation before the region). -/
theorem bias_array (c : Dev nD) :
    (V m c main_v0 : S1x128.Idx → EReal) = shapeCast S1x128 (biasArr m c) shapeCasts_S128_S1x128 := by
  dsimp only [V, hostOps0]; after_results; rfl

/-- The bias block's entry (0, q) is the bias at q. -/
theorem bias_entry (c : Dev nD) (t : Fin cfg0.N) (q : Fin 128) :
    biasBlk m c t (ix2 (0 : Fin 1) q) = biasArr m c (ix1 q) := by
  obtain ⟨-, -, -, -, -, -, -, -, e0, e1, -⟩ := where_ t
  show V m c main_v0 (((cfg0.win 3).blk t).view.emb (ix2 (0 : Fin 1) q)) = _
  have hi : ((cfg0.win 3).blk t).view.emb (ix2 (0 : Fin 1) q) = ix2 (0 : Fin 1) q := funext fun a => Fin.ext (by
    match a with
    | ⟨0, _⟩ => show win0_3.index t (0 : Fin 2) * 1 + 1 * 0 = 0; omega
    | ⟨1, _⟩ => show win0_3.index t (1 : Fin 2) * 128 + 1 * q.val = q.val; omega)
  rw [hi, bias_array]
  exact shapeCast_apply (biasArr m c) shapeCasts_S128_S1x128 (ix2 (0 : Fin 1) q) (ix1 q)
    (by rewrite [Shape.rowMajor_val_two, Shape.rowMajor_val_one]; show q.val = 0 * 128 + q.val; omega)

/-! ## What a position computes, entry by entry -/

/-- The product at position `t`, row p, column q: relation `t % 2`'s product at the row's node. -/
theorem prod_entry (c : Dev nD) (t : Fin cfg0.N) (p : Fin 400) (q : Fin 128) :
    k0_pay1 (F := Ideal) (adjBlk m c t) (featBlk m c t) (wslab (grid0.coords t) (wtsBlk m c t)) (ix2 p q)
      = Cert.Rgcn.relOut (featArr m c) (adjArr m c) (wtsArr m c) (rel t) (node t p) q := by
  refine (pay1_apply (adjBlk m c t) (featBlk m c t) (wslab (grid0.coords t) (wtsBlk m c t)) p q).trans ?_
  unfold Cert.Rgcn.relOut Cert.Rgcn.message
  refine Finset.sum_congr rfl fun j _ => ?_
  rw [slab_entry m c t j q]
  refine congrArg (· * _) (Finset.sum_congr rfl fun k _ => ?_)
  rw [adj_entry m c t p k, feat_entry m c t k j]

/-- After an even position: relation 0's product plus the bias. -/
theorem first_entry (c : Dev nD) (t : Fin cfg0.N) (h0 : t.val % 2 = 0) (p : Fin 400) (q : Fin 128) :
    firstAt m c t (ix2 p q)
      = Cert.Rgcn.relOut (featArr m c) (adjArr m c) (wtsArr m c) 0 (node t p) q + biasArr m c (ix1 q) := by
  unfold firstAt stepFirst
  refine (pay2_apply (adjBlk m c t) (featBlk m c t) (wslab (grid0.coords t) (wtsBlk m c t)) (biasBlk m c t) p q).trans ?_
  rw [prod_entry m c t p q, bias_entry m c t q]
  have hr : rel t = 0 := Fin.ext h0
  rw [hr]

/-- After an odd position, over what the block held: the sum with relation 1's product, clamped at zero. -/
theorem last_entry (c : Dev nD) (t : Fin cfg0.N) (h1 : t.val % 2 = 1) (acc : Vec Ideal S400x128 .f32) (p : Fin 400) (q : Fin 128) :
    stepLast (grid0.coords t) (adjBlk m c t) (featBlk m c t) (wtsBlk m c t) acc (ix2 p q)
      = max (acc (ix2 p q) + Cert.Rgcn.relOut (featArr m c) (adjArr m c) (wtsArr m c) 1 (node t p) q) 0 := by
  unfold stepLast
  refine (pay3_apply (adjBlk m c t) (featBlk m c t) (wslab (grid0.coords t) (wtsBlk m c t)) acc p q).trans ?_
  rw [prod_entry m c t p q]
  have hr : rel t = 1 := Fin.ext h1
  rw [hr]

/-! ## What is written back, and the final array -/

/-- An odd position writes back its block of the layer's result. -/
theorem flushed_eq (c : Dev nD) (t : Fin cfg0.N) (hf : (cfg0.win 4).flush t = true) :
    (dats m 0 c).flushed 4 t = ((cfg0.win 4).blk t).view.read (Elt Ideal) (result m c) := by
  have h1 : t.val % 2 = 1 := (flush0_4 t).mp hf
  have h0 : ¬t.val % 2 = 0 := by omega
  obtain ⟨-, -, -, -, -, -, -, -, -, -, e0, e1, -⟩ := where_ t
  show (cfg0.win 4).cut (grid0.coords t) ((dats m 0 c).after 4 t) = _
  rw [after_4, blockAfter_last m c t h0]
  funext y
  obtain ⟨p, q, rfl⟩ : ∃ (p : Fin 400) (q : Fin 128), y = ix2 p q := ⟨y 0, y 1, eq_ix2 y⟩
  show stepLast (grid0.coords t) (adjBlk m c t) (featBlk m c t) (wtsBlk m c t) (firstAt m c (prev t)) (ix2 p q)
    = result m c (((cfg0.win 4).blk t).view.emb (ix2 p q))
  have hi : ((cfg0.win 4).blk t).view.emb (ix2 p q) = ix2 (node t p) q := funext fun a => Fin.ext (by
    match a with
    | ⟨0, _⟩ => show win0_4.index t (0 : Fin 2) * 400 + 1 * p.val = t.val / 2 * 400 + p.val; omega
    | ⟨1, _⟩ => show win0_4.index t (1 : Fin 2) * 128 + 1 * q.val = q.val; omega)
  rw [hi, last_entry m c t h1, first_entry m c (prev t) (by dsimp only; omega)]
  have hn : node (prev t) p = node t p := Fin.ext (by dsimp only; omega)
  rw [hn]
  rfl

/-- An index of the result is in position `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- Every entry of the result is in the block of an odd position: row r is in row block r / 400. -/
theorem covered (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ := block_onto ⟨(i 0).val / 400, by omega⟩
  have ht' : t.val = 2 * ((i 0).val / 400) + 1 := ht
  obtain ⟨-, -, -, -, -, -, -, -, -, -, e0, e1, -⟩ := where_ t
  refine ⟨t, (flush0_4 t).mpr (by omega), ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- The result array after the run is the layer's function of the arguments. -/
theorem final (c : Dev nD) : (dats m 0 c).arrAt 4 cfg0.N = result m c :=
  (dats m 0 c).arrAt_eq_of_cover 4 (result m c) (fun t hf => flushed_eq m c t hf) covered

/-- The run, read: the result at the layer's function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.KernelValue

end
-- ==== Proof.RefValue.lean ====
/-
  The reference's result, entry by entry, is the layer's function of the four arrays.

  The reference slices each relation's adjacency matrix and weight matrix out of the stacked arrays, multiplies adjacency by
  features and the result by weights, stacks the two products along a new leading axis and sums along it from zero, adds the bias
  (broadcast along the nodes) and clamps at zero. Entry (i,l) is therefore max((0 + (P0 + P1)) + b l, 0) with P_r relation r's
  product; the layer's function adds in the order (P0 + b l) + P1, the same extended real.
-/
import proofs.«101269_g83150566851288_cont_9to1c4b_27_4_alg».proof.Proof.Gen.ReferenceIdeal.Read
import proofs.«101269_g83150566851288_cont_9to1c4b_27_4_alg».proof.Proof.Spec

noncomputable section

namespace Cert.ReferenceIdeal.RefValue

open Cert.ReferenceIdeal Cert.ReferenceIdeal.Read
open Idealize.ShloMosaic Idealize.ShloMosaic.ValueIdx

/-! ## The layout stages' composed indices, at indices given by coordinates -/

/-- Slicing relation 0 out of the adjacency and dropping the unit axis reads entry (i,k) at (0,i,k). -/
theorem adj0_idx (i k : Fin 10000) : idx_main_v0 (idx_main_v1 (ix2 i k)) = ix3 (0 : Fin 2) i k := by
  funext a
  refine Fin.ext ?_
  have hi := i.isLt
  have hk := k.isLt
  match a with
  | ⟨0, _⟩ => rfl
  | ⟨1, _⟩ => show (i.val * 10000 + k.val) / 10000 % 10000 = i.val; omega
  | ⟨2, _⟩ => show (i.val * 10000 + k.val) % 10000 = k.val; omega

/-- Slicing relation 1 out of the adjacency and dropping the unit axis reads entry (i,k) at (1,i,k). -/
theorem adj1_idx (i k : Fin 10000) : idx_main_v6 (idx_main_v7 (ix2 i k)) = ix3 (1 : Fin 2) i k := by
  funext a
  refine Fin.ext ?_
  have hi := i.isLt
  have hk := k.isLt
  match a with
  | ⟨0, _⟩ => rfl
  | ⟨1, _⟩ => show (i.val * 10000 + k.val) / 10000 % 10000 = i.val; omega
  | ⟨2, _⟩ => show (i.val * 10000 + k.val) % 10000 = k.val; omega

/-- Slicing relation 0 out of the weights and dropping the unit axis reads entry (j,l) at (0,j,l). -/
theorem wts0_idx (j l : Fin 128) : idx_main_v3 (idx_main_v4 (ix2 j l)) = ix3 (0 : Fin 2) j l := by
  funext a
  refine Fin.ext ?_
  have hj := j.isLt
  have hl := l.isLt
  match a with
  | ⟨0, _⟩ => rfl
  | ⟨1, _⟩ => show (j.val * 128 + l.val) / 128 % 128 = j.val; omega
  | ⟨2, _⟩ => show (j.val * 128 + l.val) % 128 = l.val; omega

/-- Slicing relation 1 out of the weights and dropping the unit axis reads entry (j,l) at (1,j,l). -/
theorem wts1_idx (j l : Fin 128) : idx_main_v9 (idx_main_v10 (ix2 j l)) = ix3 (1 : Fin 2) j l := by
  funext a
  refine Fin.ext ?_
  have hj := j.isLt
  have hl := l.isLt
  match a with
  | ⟨0, _⟩ => rfl
  | ⟨1, _⟩ => show (j.val * 128 + l.val) / 128 % 128 = j.val; omega
  | ⟨2, _⟩ => show (j.val * 128 + l.val) % 128 = l.val; omega

/-- Relation 0's adjacency matrix at (i,k) is the stacked adjacency at (0,i,k). -/
theorem adj0_at (x1 : (⟨S2x10000x10000, .f32⟩ : BufTy).Contents (Elt Ideal)) (i k : Fin 10000) :
    val_main_v1 (F := Ideal) x1 (ix2 i k) = x1 (ix3 (0 : Fin 2) i k) :=
  (val_main_v1_apply x1 _).trans ((val_main_v0_apply x1 _).trans (congrArg x1 (adj0_idx i k)))

/-- Relation 1's adjacency matrix at (i,k) is the stacked adjacency at (1,i,k). -/
theorem adj1_at (x1 : (⟨S2x10000x10000, .f32⟩ : BufTy).Contents (Elt Ideal)) (i k : Fin 10000) :
    val_main_v7 (F := Ideal) x1 (ix2 i k) = x1 (ix3 (1 : Fin 2) i k) :=
  (val_main_v7_apply x1 _).trans ((val_main_v6_apply x1 _).trans (congrArg x1 (adj1_idx i k)))

/-- Relation 0's weight matrix at (j,l) is the stacked weights at (0,j,l). -/
theorem wts0_at (x2 : (⟨S2x128x128, .f32⟩ : BufTy).Contents (Elt Ideal)) (j l : Fin 128) :
    val_main_v4 (F := Ideal) x2 (ix2 j l) = x2 (ix3 (0 : Fin 2) j l) :=
  (val_main_v4_apply x2 _).trans ((val_main_v3_apply x2 _).trans (congrArg x2 (wts0_idx j l)))

/-- Relation 1's weight matrix at (j,l) is the stacked weights at (1,j,l). -/
theorem wts1_at (x2 : (⟨S2x128x128, .f32⟩ : BufTy).Contents (Elt Ideal)) (j l : Fin 128) :
    val_main_v10 (F := Ideal) x2 (ix2 j l) = x2 (ix3 (1 : Fin 2) j l) :=
  (val_main_v10_apply x2 _).trans ((val_main_v9_apply x2 _).trans (congrArg x2 (wts1_idx j l)))

/-! ## The products' operand indices -/

/-- A matrix product's left operand at output (i,j), contraction position k, is read at (i,k). -/
theorem lidx2_eq (i : Fin 10000) (j : Fin 128) (k : Fin 10000) : lidx_main_v2 (ix2 i j) k = ix2 i k := by
  funext a
  match a with
  | ⟨0, _⟩ => rfl
  | ⟨1, _⟩ => rfl

/-- A matrix product's right operand at output (i,j), contraction position k, is read at (k,j). -/
theorem ridx2_eq (i : Fin 10000) (j : Fin 128) (k : Fin 10000) : ridx_main_v2 (ix2 i j) k = ix2 k j := by
  funext a
  match a with
  | ⟨0, _⟩ => rfl
  | ⟨1, _⟩ => rfl

/-- The second product's left operand at output (i,l), contraction position j, is read at (i,j). -/
theorem lidx5_eq (i : Fin 10000) (l : Fin 128) (j : Fin 128) : lidx_main_v5 (ix2 i l) j = ix2 i j := by
  funext a
  match a with
  | ⟨0, _⟩ => rfl
  | ⟨1, _⟩ => rfl

/-- The second product's right operand at output (i,l), contraction position j, is read at (j,l). -/
theorem ridx5_eq (i : Fin 10000) (l : Fin 128) (j : Fin 128) : ridx_main_v5 (ix2 i l) j = ix2 j l := by
  funext a
  match a with
  | ⟨0, _⟩ => rfl
  | ⟨1, _⟩ => rfl

/-! ## The two relations' products -/

/-- Adjacency of relation 0 times features, at (i,j), is relation 0's message. -/
theorem msg0_at (x0 : (⟨S10000x128, .f32⟩ : BufTy).Contents (Elt Ideal)) (x1 : (⟨S2x10000x10000, .f32⟩ : BufTy).Contents (Elt Ideal))
    (i : Fin 10000) (j : Fin 128) :
    val_main_v2 (F := Ideal) x0 x1 (ix2 i j) = Cert.Rgcn.message x0 x1 0 i j := by
  refine (val_main_v2_apply x0 x1 _).trans ?_
  unfold Cert.Rgcn.message
  refine Finset.sum_congr rfl fun k _ => ?_
  show val_main_v1 (F := Ideal) x1 (lidx_main_v2 (ix2 i j) k) * x0 (ridx_main_v2 (ix2 i j) k) = _
  rw [lidx2_eq, ridx2_eq, adj0_at]

/-- Adjacency of relation 1 times features, at (i,j), is relation 1's message. -/
theorem msg1_at (x0 : (⟨S10000x128, .f32⟩ : BufTy).Contents (Elt Ideal)) (x1 : (⟨S2x10000x10000, .f32⟩ : BufTy).Contents (Elt Ideal))
    (i : Fin 10000) (j : Fin 128) :
    val_main_v8 (F := Ideal) x0 x1 (ix2 i j) = Cert.Rgcn.message x0 x1 1 i j := by
  refine (val_main_v8_apply x0 x1 _).trans ?_
  unfold Cert.Rgcn.message
  refine Finset.sum_congr rfl fun k _ => ?_
  show val_main_v7 (F := Ideal) x1 (lidx_main_v2 (ix2 i j) k) * x0 (ridx_main_v2 (ix2 i j) k) = _
  rw [lidx2_eq, ridx2_eq, adj1_at]

/-- Relation 0's message times relation 0's weights, at (i,l), is relation 0's product. -/
theorem rel0_at (x0 : (⟨S10000x128, .f32⟩ : BufTy).Contents (Elt Ideal)) (x1 : (⟨S2x10000x10000, .f32⟩ : BufTy).Contents (Elt Ideal))
    (x2 : (⟨S2x128x128, .f32⟩ : BufTy).Contents (Elt Ideal)) (i : Fin 10000) (l : Fin 128) :
    val_main_v5 (F := Ideal) x0 x1 x2 (ix2 i l) = Cert.Rgcn.relOut x0 x1 x2 0 i l := by
  refine (val_main_v5_apply x0 x1 x2 _).trans ?_
  unfold Cert.Rgcn.relOut
  refine Finset.sum_congr rfl fun j _ => ?_
  show val_main_v2 (F := Ideal) x0 x1 (lidx_main_v5 (ix2 i l) j) * val_main_v4 (F := Ideal) x2 (ridx_main_v5 (ix2 i l) j) = _
  rw [lidx5_eq, ridx5_eq, msg0_at, wts0_at]

/-- Relation 1's message times relation 1's weights, at (i,l), is relation 1's product. -/
theorem rel1_at (x0 : (⟨S10000x128, .f32⟩ : BufTy).Contents (Elt Ideal)) (x1 : (⟨S2x10000x10000, .f32⟩ : BufTy).Contents (Elt Ideal))
    (x2 : (⟨S2x128x128, .f32⟩ : BufTy).Contents (Elt Ideal)) (i : Fin 10000) (l : Fin 128) :
    val_main_v11 (F := Ideal) x0 x1 x2 (ix2 i l) = Cert.Rgcn.relOut x0 x1 x2 1 i l := by
  refine (val_main_v11_apply x0 x1 x2 _).trans ?_
  unfold Cert.Rgcn.relOut
  refine Finset.sum_congr rfl fun j _ => ?_
  show val_main_v8 (F := Ideal) x0 x1 (lidx_main_v5 (ix2 i l) j) * val_main_v10 (F := Ideal) x2 (ridx_main_v5 (ix2 i l) j) = _
  rw [lidx5_eq, ridx5_eq, msg1_at, wts1_at]

/-! ## Stacking the two products and summing along the new axis -/

/-- The stack of the two products at (0,i,l) is relation 0's product at (i,l). -/
theorem stack_at_zero (x0 : (⟨S10000x128, .f32⟩ : BufTy).Contents (Elt Ideal)) (x1 : (⟨S2x10000x10000, .f32⟩ : BufTy).Contents (Elt Ideal))
    (x2 : (⟨S2x128x128, .f32⟩ : BufTy).Contents (Elt Ideal)) (i : Fin 10000) (l : Fin 128) :
    val_main_v14 (F := Ideal) x0 x1 x2 (idx_main_v15 (ix2 i l) 0) = Cert.Rgcn.relOut x0 x1 x2 0 i l := by
  unfold val_main_v14
  refine (concatenate_pair_apply_left _ _ _ Gen.concatenates_S1x10000x128_S1x10000x128_S2x10000x128_d0
    (idx_main_v15 (ix2 i l) 0) rfl (ix3 (0 : Fin 1) i l) (fun b => by
      match b with
      | ⟨0, _⟩ => rfl
      | ⟨1, _⟩ => rfl
      | ⟨2, _⟩ => rfl)).trans ?_
  refine (val_main_v12_apply x0 x1 x2 _).trans ?_
  refine (congrArg (val_main_v5 (F := Ideal) x0 x1 x2) (?_ : idx_main_v12 (ix3 (0 : Fin 1) i l) = ix2 i l)).trans (rel0_at x0 x1 x2 i l)
  funext a
  match a with
  | ⟨0, _⟩ => rfl
  | ⟨1, _⟩ => rfl

/-- The stack of the two products at (1,i,l) is relation 1's product at (i,l). -/
theorem stack_at_one (x0 : (⟨S10000x128, .f32⟩ : BufTy).Contents (Elt Ideal)) (x1 : (⟨S2x10000x10000, .f32⟩ : BufTy).Contents (Elt Ideal))
    (x2 : (⟨S2x128x128, .f32⟩ : BufTy).Contents (Elt Ideal)) (i : Fin 10000) (l : Fin 128) :
    val_main_v14 (F := Ideal) x0 x1 x2 (idx_main_v15 (ix2 i l) 1) = Cert.Rgcn.relOut x0 x1 x2 1 i l := by
  unfold val_main_v14
  refine (concatenate_pair_apply_right _ _ _ Gen.concatenates_S1x10000x128_S1x10000x128_S2x10000x128_d0
    (idx_main_v15 (ix2 i l) 1) rfl rfl (ix3 (0 : Fin 1) i l) (fun b hb => by
      match b with
      | ⟨0, _⟩ => exact absurd rfl hb
      | ⟨1, _⟩ => rfl
      | ⟨2, _⟩ => rfl) rfl).trans ?_
  refine (val_main_v13_apply x0 x1 x2 _).trans ?_
  refine (congrArg (val_main_v11 (F := Ideal) x0 x1 x2) (?_ : idx_main_v13 (ix3 (0 : Fin 1) i l) = ix2 i l)).trans (rel1_at x0 x1 x2 i l)
  funext a
  match a with
  | ⟨0, _⟩ => rfl
  | ⟨1, _⟩ => rfl

/-- The sum of the stack along its leading axis, from zero, at (i,l): zero plus the two relations' products. -/
theorem sum_at (x0 : (⟨S10000x128, .f32⟩ : BufTy).Contents (Elt Ideal)) (x1 : (⟨S2x10000x10000, .f32⟩ : BufTy).Contents (Elt Ideal))
    (x2 : (⟨S2x128x128, .f32⟩ : BufTy).Contents (Elt Ideal)) (i : Fin 10000) (l : Fin 128) :
    val_main_v15 (F := Ideal) x0 x1 x2 (ix2 i l) = 0 + (Cert.Rgcn.relOut x0 x1 x2 0 i l + Cert.Rgcn.relOut x0 x1 x2 1 i l) := by
  refine (val_main_v15_apply x0 x1 x2 _).trans ?_
  rw [Fin.sum_univ_two, stack_at_zero, stack_at_one]
  refine congrArg (· + _) ?_
  exact (val_main_cst_apply (F := Ideal) _).trans ((Ideal.ofBits_def _).trans Ideal.ofBits_zero_f32)

/-- The bias broadcast along the nodes, at (i,l), is the bias at l. -/
theorem bias_at (x3 : (⟨S128, .f32⟩ : BufTy).Contents (Elt Ideal)) (i : Fin 10000) (l : Fin 128) :
    val_main_v17 (F := Ideal) x3 (ix2 i l) = x3 (ix1 l) := by
  refine (val_main_v17_apply x3 _).trans ((val_main_v16_apply x3 _).trans (congrArg x3 ?_))
  funext a
  match a with
  | ⟨0, _⟩ => rfl

/-- The zero splat the clamp compares against is the extended real 0 at every entry. -/
theorem zero_at (y : S10000x128.Idx) : val_main_call0_v0 (F := Ideal) y = 0 :=
  (val_main_call0_v0_apply (F := Ideal) y).trans
    ((val_main_call0_cst_apply (F := Ideal) _).trans ((Ideal.ofBits_def _).trans Ideal.ofBits_zero_f32))

/-- The reference's last stage is the layer's function of the arguments. -/
theorem result_eq (x0 : (⟨S10000x128, .f32⟩ : BufTy).Contents (Elt Ideal)) (x1 : (⟨S2x10000x10000, .f32⟩ : BufTy).Contents (Elt Ideal))
    (x2 : (⟨S2x128x128, .f32⟩ : BufTy).Contents (Elt Ideal)) (x3 : (⟨S128, .f32⟩ : BufTy).Contents (Elt Ideal)) :
    val_main_v19 (F := Ideal) x0 x1 x2 x3 = Cert.Rgcn.layer x0 x1 x2 x3 := by
  funext y
  obtain ⟨i, l, rfl⟩ : ∃ (i : Fin 10000) (l : Fin 128), y = ix2 i l := ⟨y 0, y 1, eq_ix2 y⟩
  rw [Cert.Rgcn.layer_apply]
  unfold Cert.Rgcn.layerAt
  rw [val_main_v19_apply, val_main_v18_apply, Ideal.maximumf_def, Ideal.addf_def, zero_at, sum_at, bias_at,
    Cert.Rgcn.sum_then_bias]

end Cert.ReferenceIdeal.RefValue

end
-- ==== Proof.lean ====
/-
  A relational graph-convolution layer, out = relu((A0·X)·W0 + (A1·X)·W1 + b) over 10000 nodes with 128 features and two relations:
  the kernel (one pipelined call over 25 blocks of 400 nodes, each visited once per relation, the output block started at relation 0
  with product plus bias and finished at relation 1 with the sum clamped at zero) against the reference (two whole matrix products
  per relation, the two results stacked and summed, the bias added, the result clamped).

  On the extended reals both compute, at node i and output feature l,
      max( Σ_j (Σ_k A0[i,k]·X[k,j])·W0[j,l]  +  Σ_j (Σ_k A1[i,k]·X[k,j])·W1[j,l]  +  b[l], 0 ),
  the kernel adding in the order (P0 + b) + P1 and the reference in the order (0 + (P0 + P1)) + b. Addition of extended reals is
  commutative and associative whatever is infinite, so the two agree on every input and the precondition (finite inputs) is not used.

  The kernel's frame (it terminates without fault and leaves its arguments alone) is proved once for any float instance from the
  body's two triples, one per kind of grid point, and cited at the word-level program and at the idealized one. The idealization
  rewrote nothing, so `preserves` is trivial. The reference's frame is its run with the result dropped.
-/
import proofs.«101269_g83150566851288_cont_9to1c4b_27_4_alg».proof.Defs
import proofs.«101269_g83150566851288_cont_9to1c4b_27_4_alg».proof.Proof.Gen.Kernel
import proofs.«101269_g83150566851288_cont_9to1c4b_27_4_alg».proof.Proof.Gen.KernelIdeal
import proofs.«101269_g83150566851288_cont_9to1c4b_27_4_alg».proof.Proof.Gen.ReferenceIdeal
import proofs.«101269_g83150566851288_cont_9to1c4b_27_4_alg».proof.Proof.Gen.Pre_finite_inputs
import proofs.«101269_g83150566851288_cont_9to1c4b_27_4_alg».proof.Proof.RelationRunWords
import proofs.«101269_g83150566851288_cont_9to1c4b_27_4_alg».proof.Proof.KernelValue
import proofs.«101269_g83150566851288_cont_9to1c4b_27_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Body.frame m ρ

/-- So does the idealized kernel (the same proof, read at the extended reals). -/
theorem frame_kernelIdeal : Cert.frame_KernelIdeal := fun m ρ _ => Cert.KernelIdeal.Body.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the layer's function of them as result. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
